-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S1x1 : Shape := ⟨2, ![1, 1]⟩
abbrev S1x1x1024x1024 : Shape := ⟨4, ![1, 1, 1024, 1024]⟩
abbrev S1x1x1024 : Shape := ⟨3, ![1, 1, 1024]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S1x1, .f32⟩
  | .hbm, ⟨3, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  natLt_1_32 : 1 < 32
  reduces_S1x1x1024x1024_S1x1x1024 : S1x1x1024x1024.Reduces [3] S1x1x1024
  reduces_S1x1x1024_S1x1 : S1x1x1024.Reduces [2] S1x1
  reduces_S1x1_S1 : S1x1.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1 : Shape := ⟨2, ![32, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S_, .f32⟩
  | .hbm, ⟨3, _⟩ => ⟨S32x1x1024x1024, .f32⟩
  | .hbm, ⟨4, _⟩ => ⟨S32x1x1024x1024, .i1⟩
  | .hbm, ⟨5, _⟩ => ⟨S_, .f32⟩
  | .hbm, ⟨6, _⟩ => ⟨S32x1x1024x1024, .f32⟩
  | .hbm, ⟨7, _⟩ => ⟨S32x1x1024x1024, .i1⟩
  | .hbm, ⟨8, _⟩ => ⟨S32x1x1024x1024, .i1⟩
  | .hbm, ⟨9, _⟩ => ⟨S32x1x1024x1024, .i32⟩
  | .hbm, ⟨10, _⟩ => ⟨S_, .i32⟩
  | .hbm, ⟨11, _⟩ => ⟨S32x1, .i32⟩
  | .hbm, ⟨12, _⟩ => ⟨S32x1, .f32⟩
  | .hbm, ⟨13, _⟩ => ⟨S32x1x1024x1024, .i1⟩
  | .hbm, ⟨14, _⟩ => ⟨S32x1x1024x1024, .i32⟩
  | .hbm, ⟨15, _⟩ => ⟨S_, .i32⟩
  | .hbm, ⟨16, _⟩ => ⟨S32x1, .i32⟩
  | .hbm, ⟨17, _⟩ => ⟨S32x1, .f32⟩
  | .hbm, ⟨18, _⟩ => ⟨S_, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  natLt_1_32 : 1 < 32
  reducesTo_S32x1x1024x1024_S32x1_d2_3 : S32x1x1024x1024.ReducesTo [2, 3] S32x1
  h_S_ : 0 < S_.numel
  bcast_S_S32x1 : S_.BroadcastsInDim S32x1 (![] : Fin 0 → Fin S32x1.rank)
  reducesTo_S32x1_S_d0_1 : S32x1.ReducesTo [0, 1] S_

variable [Facts₀]

class Facts : Prop extends Facts₀ where

variable [Facts]
-- ==== Proof.LibMaskCount.lean ====
/-
  Counting the set bits of a mask over the two trailing axes of a rank-4 array, two ways.

  A mask `M` of one-bit words over an array of extents `[n0, n1, n2, n3]` is widened to 32-bit words and then
  summed over the trailing plane at fixed leading coordinates `(a, b)`. One program converts each widened bit to a
  float and adds the floats (first along the last axis, then along the one before it); another adds the 32-bit
  words and converts the total. Over the extended reals both are the natural number `count M a b` of set bits in
  that plane, provided the plane has fewer than 2³¹ positions, so that the word sum neither wraps nor turns negative.
-/
import Idealize.ShloMosaic.PureOps.Ideal.Laws
import Idealize.ShloMosaic.Lib.ValueIdx
import Idealize.ShloMosaic.Lib.StableHlo.Predicate

noncomputable section

open scoped BigOperators

namespace Cert.MaskCount

open Idealize.ShloMosaic Idealize.ShloMosaic.ValueIdx Idealize.ShloMosaic.StableHlo.Predicate

variable {n0 n1 n2 n3 : Nat}

/-- The coercion of reals into the extended reals commutes with finite sums. -/
theorem coe_sum {ι : Type} (s : Finset ι) (f : ι → ℝ) : ((∑ i ∈ s, f i : ℝ) : EReal) = ∑ i ∈ s, (f i : EReal) := by
  classical
  induction s using Finset.cons_induction with
  | empty => simp
  | cons a s ha ih => rw [Finset.sum_cons, Finset.sum_cons, EReal.coe_add, ih]

/-- A one-bit word widened to 32 bits and read as a signed integer is 1 when the bit is set and 0 otherwise. -/
theorem toInt_setWidth_bit (b : BitVec 1) : ((b.setWidth 32).toInt : ℝ) = if b = 1#1 then 1 else 0 := by
  rcases BitVec.eq_zero_or_eq_one b with rfl | rfl
  · have h : ((0#1 : BitVec 1).setWidth 32).toInt = 0 := by decide
    rw [h]; simp
  · have h : ((1#1 : BitVec 1).setWidth 32).toInt = 1 := by decide
    rw [h]; simp

/-- The number of set bits of `M` in the trailing plane at leading coordinates `(a, b)`. -/
def count (M : (⟨4, ![n0, n1, n2, n3]⟩ : Shape).Idx → BitVec 1) (a : Fin n0) (b : Fin n1) : ℕ :=
  ∑ p : Fin n2, ∑ q : Fin n3, if M (ix4 a b p q) = 1#1 then 1 else 0

/-- The count only looks at the plane it counts. -/
theorem count_congr {m0 m1 : Nat} (M : (⟨4, ![n0, n1, n2, n3]⟩ : Shape).Idx → BitVec 1)
    (M' : (⟨4, ![m0, m1, n2, n3]⟩ : Shape).Idx → BitVec 1) (a : Fin n0) (b : Fin n1) (a' : Fin m0) (b' : Fin m1)
    (h : ∀ p q, M (ix4 a b p q) = M' (ix4 a' b' p q)) : count M a b = count M' a' b' := by
  unfold count
  exact Finset.sum_congr rfl fun p _ => Finset.sum_congr rfl fun q _ => by rw [h p q]

/-- A plane has at most `n2 * n3` set bits. -/
theorem count_le (M : (⟨4, ![n0, n1, n2, n3]⟩ : Shape).Idx → BitVec 1) (a : Fin n0) (b : Fin n1) :
    count M a b ≤ n2 * n3 := by
  unfold count
  calc ∑ p : Fin n2, ∑ q : Fin n3, (if M (ix4 a b p q) = 1#1 then 1 else 0)
      ≤ ∑ p : Fin n2, ∑ q : Fin n3, 1 :=
        Finset.sum_le_sum fun p _ => Finset.sum_le_sum fun q _ => by split <;> omega
    _ = n2 * n3 := by simp

/-- FLOATS ADDED: the double sum, over the plane, of each widened bit converted to a real, is the count. -/
theorem sum_toInt_eq_count (M : (⟨4, ![n0, n1, n2, n3]⟩ : Shape).Idx → BitVec 1) (a : Fin n0) (b : Fin n1) :
    (∑ p : Fin n2, ∑ q : Fin n3, ((((M (ix4 a b p q)).setWidth 32).toInt : ℝ) : EReal)) = ((count M a b : ℝ) : EReal) := by
  unfold count
  rw [Nat.cast_sum, coe_sum]
  refine Finset.sum_congr rfl fun p _ => ?_
  rw [Nat.cast_sum, coe_sum]
  refine Finset.sum_congr rfl fun q _ => ?_
  rw [toInt_setWidth_bit]
  split <;> simp

/-- The indices of the array that drop to `j` when the two trailing axes are reduced are those of the plane at `j`:
    a sum over them is the double sum over the plane. -/
theorem sum_filter_drop_trailing (h : (⟨4, ![n0, n1, n2, n3]⟩ : Shape).ReducesTo [2, 3] ⟨2, ![n0, n1]⟩)
    (g : (⟨4, ![n0, n1, n2, n3]⟩ : Shape).Idx → ℕ) (j : (⟨2, ![n0, n1]⟩ : Shape).Idx) :
    ∑ i ∈ Finset.univ.filter (fun i => h.drop i = j), g i = ∑ p : Fin n2, ∑ q : Fin n3, g (ix4 (j 0) (j 1) p q) := by
  classical
  have hdrop : ∀ i : (⟨4, ![n0, n1, n2, n3]⟩ : Shape).Idx, h.drop i = j ↔ (i 0 = j 0 ∧ i 1 = j 1) := by
    intro i
    have hv0 : (h.drop i 0 : Nat) = i 0 := Shape.ReducesTo.drop_apply_val h i 0
    have hv1 : (h.drop i 1 : Nat) = i 1 := Shape.ReducesTo.drop_apply_val h i 1
    constructor
    · intro e
      rw [e] at hv0 hv1
      exact ⟨Fin.ext hv0.symm, Fin.ext hv1.symm⟩
    · rintro ⟨e0, e1⟩
      funext b
      match b with
      | ⟨0, _⟩ => exact Fin.ext (hv0.trans (congrArg Fin.val e0))
      | ⟨1, _⟩ => exact Fin.ext (hv1.trans (congrArg Fin.val e1))
  have hback : ∀ i : (⟨4, ![n0, n1, n2, n3]⟩ : Shape).Idx, (i 0 = j 0 ∧ i 1 = j 1) → ix4 (j 0) (j 1) (i 2) (i 3) = i := by
    rintro i ⟨e0, e1⟩
    funext b
    match b with
    | ⟨0, _⟩ => exact e0.symm
    | ⟨1, _⟩ => exact e1.symm
    | ⟨2, _⟩ => rfl
    | ⟨3, _⟩ => rfl
  rw [← Fintype.sum_prod_type' (fun (p : Fin n2) (q : Fin n3) => g (ix4 (j 0) (j 1) p q))]
  refine Finset.sum_bij' (fun i _ => ((i 2, i 3) : Fin n2 × Fin n3)) (fun pq _ => ix4 (j 0) (j 1) pq.1 pq.2)
    (fun _ _ => Finset.mem_univ _)
    (fun pq _ => Finset.mem_filter.2 ⟨Finset.mem_univ _, (hdrop _).2 ⟨rfl, rfl⟩⟩)
    (fun i hi => hback i ((hdrop i).1 (Finset.mem_filter.1 hi).2)) (fun _ _ => rfl) ?_
  intro i hi
  exact congrArg g (hback i ((hdrop i).1 (Finset.mem_filter.1 hi).2)).symm

/-- WORDS ADDED: the sum-reduction of the widened mask over the two trailing axes, read as a signed integer, is the
    count (the plane has fewer than 2³¹ positions, so the word sum does not wrap and its sign bit stays clear). -/
theorem toInt_reduce_eq_count (hn : n2 * n3 < 2 ^ 31) (M : IVec ⟨4, ![n0, n1, n2, n3]⟩ 1) (hw : 1 < 32)
    (h : (⟨4, ![n0, n1, n2, n3]⟩ : Shape).ReducesTo [2, 3] ⟨2, ![n0, n1]⟩) {u : Shape} (hu : 0 < u.numel)
    (j : (⟨2, ![n0, n1]⟩ : Shape).Idx) :
    (Host.reduce IntOp.addi (extui 32 M hw) (constantI u 32 0#32) h hu j).toInt = (count M (j 0) (j 1) : ℤ) := by
  classical
  rw [Host.reduce_eq_fold]
  have hsum : ∑ i ∈ Finset.univ.filter (fun i : (⟨4, ![n0, n1, n2, n3]⟩ : Shape).Idx => h.drop i = j), (extui 32 M hw i).toNat
      = count M (j 0) (j 1) := by
    rw [sum_filter_drop_trailing h (fun i => (extui 32 M hw i).toNat) j]
    unfold count
    exact Finset.sum_congr rfl fun p _ => Finset.sum_congr rfl fun q _ => toNat_setWidth_bit _
  have hle := count_le M (j 0) (j 1)
  have hfold : (Finset.fold IntOp.addi 0#32 (extui 32 M hw) (Finset.univ.filter fun i : (⟨4, ![n0, n1, n2, n3]⟩ : Shape).Idx => h.drop i = j)).toNat
      = count M (j 0) (j 1) := by
    rw [toNat_fold_addi _ _ (by rw [hsum]; omega), hsum]
  show (Finset.fold IntOp.addi 0#32 (extui 32 M hw) (Finset.univ.filter fun i : (⟨4, ![n0, n1, n2, n3]⟩ : Shape).Idx => h.drop i = j)).toInt = _
  rw [toInt_eq_toNat_of_lt (by rw [hfold]; omega), hfold]

/-- The same as an extended real: the converted word sum is the count. -/
theorem coe_toInt_reduce_eq_count (hn : n2 * n3 < 2 ^ 31) (M : IVec ⟨4, ![n0, n1, n2, n3]⟩ 1) (hw : 1 < 32)
    (h : (⟨4, ![n0, n1, n2, n3]⟩ : Shape).ReducesTo [2, 3] ⟨2, ![n0, n1]⟩) {u : Shape} (hu : 0 < u.numel)
    (j : (⟨2, ![n0, n1]⟩ : Shape).Idx) :
    ((((Host.reduce IntOp.addi (extui 32 M hw) (constantI u 32 0#32) h hu j).toInt : ℤ) : ℝ) : EReal)
      = ((count M (j 0) (j 1) : ℝ) : EReal) := by
  rw [toInt_reduce_eq_count hn M hw h hu j, Int.cast_natCast]

end Cert.MaskCount

end
-- ==== Proof.Spec.lean ====
/-
  The quantity both programs compute, over the extended reals.

  For two arrays `X`, `Y` of extents [32, 1, 1024, 1024], slice `k` contributes the ratio
  `|{X = 1} ∩ {Y = 1}| / (|{X = 1} ∪ {Y = 1}| + ε)` of two bit counts over its 1024 × 1024 plane (`ε` the f32 nearest 1e-7,
  kept as the word both programs spell). The result is the sum of the 32 ratios times 25/8: one program multiplies the
  running sum by the f32 constant 3.125, the other divides by 32 and multiplies by 100, and on the extended reals these
  agree at every value, the infinities included (`scale_law`).
-/
import proofs.«114221_j56547539419669_1_alg».proof.Proof.LibMaskCount

noncomputable section

open scoped BigOperators

namespace Cert.Jaccard

open Idealize.ShloMosaic Idealize.ShloMosaic.ValueIdx Cert.MaskCount

/-- The f32 patterns the two programs spell, as the reals they denote. -/
theorem ofBits_32 : Ideal.ofBits .f32 0x42000000#32 = ((32 : ℝ) : EReal) := by
  simp [Ideal.ofBits, Ideal.ieee, -EReal.coe_mul]; norm_num
theorem ofBits_100 : Ideal.ofBits .f32 0x42C80000#32 = ((100 : ℝ) : EReal) := by
  simp [Ideal.ofBits, Ideal.ieee, -EReal.coe_mul]; norm_num
theorem ofBits_25_8 : Ideal.ofBits .f32 0x40480000#32 = ((25 / 8 : ℝ) : EReal) := by
  simp [Ideal.ofBits, Ideal.ieee, -EReal.coe_mul]; norm_num

/-- Dividing by 32 and then multiplying by 100 is multiplying by 25/8, at every extended real. -/
theorem scale_law (x : EReal) :
    Ideal.div x (Ideal.ofBits .f32 0x42000000#32) * Ideal.ofBits .f32 0x42C80000#32 = x * Ideal.ofBits .f32 0x40480000#32 := by
  rw [ofBits_32, ofBits_100, ofBits_25_8, Ideal.div_coe (by norm_num : (32 : ℝ) ≠ 0), mul_assoc, ← EReal.coe_mul]
  norm_num

/-- The one-bit mask "the element is 1.0". -/
def isOne {s : Shape} (x : s.Idx → EReal) : s.Idx → BitVec 1 :=
  fun i => FloatOps.cmpf (F := Ideal) .oeq (x i) (FloatOps.ofBits (F := Ideal) .f32 0x3F800000#32)

variable {n0 n1 n2 n3 : Nat}

/-- The ratio of the plane at `(a, b)`: the count of positions set in both masks over the count of positions set in
    either, plus `ε`. -/
def ratio (A B : (⟨4, ![n0, n1, n2, n3]⟩ : Shape).Idx → BitVec 1) (a : Fin n0) (b : Fin n1) : EReal :=
  Ideal.div ((count (fun i => IntOp.andi (A i) (B i)) a b : ℝ) : EReal)
    (((count (fun i => IntOp.ori (A i) (B i)) a b : ℝ) : EReal) + FloatOps.ofBits (F := Ideal) .f32 0x33D6BF95#32)

/-- The ratio only looks at its plane. -/
theorem ratio_congr {m0 m1 : Nat} (A B : (⟨4, ![n0, n1, n2, n3]⟩ : Shape).Idx → BitVec 1)
    (A' B' : (⟨4, ![m0, m1, n2, n3]⟩ : Shape).Idx → BitVec 1) (a : Fin n0) (b : Fin n1) (a' : Fin m0) (b' : Fin m1)
    (hA : ∀ p q, A (ix4 a b p q) = A' (ix4 a' b' p q)) (hB : ∀ p q, B (ix4 a b p q) = B' (ix4 a' b' p q)) :
    ratio A B a b = ratio A' B' a' b' := by
  unfold ratio
  rw [count_congr (fun i => IntOp.andi (A i) (B i)) (fun i => IntOp.andi (A' i) (B' i)) a b a' b' (fun p q => by rw [hA, hB]),
    count_congr (fun i => IntOp.ori (A i) (B i)) (fun i => IntOp.ori (A' i) (B' i)) a b a' b' (fun p q => by rw [hA, hB])]

/-- The result: the 32 slices' ratios summed, times 25/8. -/
def loss (X Y : (⟨4, ![32, 1, 1024, 1024]⟩ : Shape).Idx → EReal) : EReal :=
  (∑ k : Fin 32, ratio (isOne X) (isOne Y) k 0) * Ideal.ofBits .f32 0x40480000#32

/-- A sum over the first `n + 1` naturals of a function given on `Fin 32`, extended by zero: the running sum a
    point-by-point accumulation builds. -/
def upTo (f : Fin 32 → EReal) (n : ℕ) : EReal := ∑ k ∈ Finset.range (n + 1), if h : k < 32 then f ⟨k, h⟩ else 0

theorem upTo_zero (f : Fin 32 → EReal) : upTo f 0 = f 0 := by
  unfold upTo; rw [Finset.sum_range_one]; rfl

theorem upTo_succ (f : Fin 32 → EReal) (n : ℕ) (h : n + 1 < 32) : upTo f (n + 1) = upTo f n + f ⟨n + 1, h⟩ := by
  unfold upTo; rw [Finset.sum_range_succ _ (n + 1), dif_pos h]

theorem upTo_last (f : Fin 32 → EReal) : upTo f 31 = ∑ k : Fin 32, f k := by
  unfold upTo
  rw [Finset.sum_range]
  exact Finset.sum_congr rfl fun k _ => by rw [dif_pos k.isLt]

end Cert.Jaccard

end
-- ==== Proof.KernelPayload.lean ====
/-
  The kernel body's three stored values, read at the ideal instance.

  The output block is a single number. The first grid point stores 0; every point adds to what the block holds the
  ratio of its slice: the two masks `x = 1.0`, their conjunction and disjunction widened and converted to floats, each
  summed over the 1024 × 1024 plane (along the last axis, then along the rows), the quotient `∩ / (∪ + ε)`; the last
  point multiplies the block by 3.125. Over the extended reals the two plane sums are the bit counts, so the added
  term is `ratio` of the two masks.
-/
import proofs.«114221_j56547539419669_1_alg».proof.Proof.Gen.KernelIdeal.Skeleton
import proofs.«114221_j56547539419669_1_alg».proof.Proof.Spec
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.MaskCount Cert.Jaccard

/-- A 1 × 1 block has one index. -/
instance : Subsingleton S1x1.Idx :=
  ⟨fun a b => funext fun d => match d with
    | ⟨0, _⟩ => Subsingleton.elim (α := Fin 1) _ _
    | ⟨1, _⟩ => Subsingleton.elim (α := Fin 1) _ _⟩

/-- Summing a [1, 1, 1024, 1024] block along its last axis and then along its rows gives, at the one index of the
    result, the double sum over the plane. -/
theorem plane_sum (v : FVec Ideal S1x1x1024x1024 .f32) (h3 : S1x1x1024x1024.Reduces [3] S1x1x1024)
    (h2 : S1x1x1024.Reduces [2] S1x1) :
    multiReduction .add [2] S1x1 (multiReduction .add [3] S1x1x1024 v 0x00000000#32 h3 (.inl rfl) rfl) 0x00000000#32 h2 (.inl rfl) rfl (ix2 0 0)
      = ∑ p : Fin 1024, ∑ q : Fin 1024, v (ix4 0 0 p q) := by
  refine (Ideal.multiReduction_add_single _ _ h2 _ _ (ix2 0 0)).trans ?_
  refine Finset.sum_congr rfl fun p _ => ?_
  refine (Ideal.multiReduction_add_single v _ h3 _ _ _).trans ?_
  refine Finset.sum_congr rfl fun q _ => congrArg v ?_
  funext a
  apply Fin.ext
  match a with
  | ⟨0, _⟩ => rfl
  | ⟨1, _⟩ => rfl
  | ⟨2, _⟩ => rfl
  | ⟨3, _⟩ => rfl

/-- A widened, converted mask summed over the plane is the count of its set bits. -/
theorem plane_count (M : IVec S1x1x1024x1024 1) (hlt : 1 < 32) (h3 : S1x1x1024x1024.Reduces [3] S1x1x1024)
    (h2 : S1x1x1024.Reduces [2] S1x1) :
    multiReduction .add [2] S1x1 (multiReduction .add [3] S1x1x1024 (sitofp (F := Ideal) .f32 (extui 32 M hlt)) 0x00000000#32 h3 (.inl rfl) rfl) 0x00000000#32 h2 (.inl rfl) rfl (ix2 0 0)
      = ((count M (0 : Fin 1) (0 : Fin 1) : ℝ) : EReal) :=
  (plane_sum _ h3 h2).trans (sum_toInt_eq_count M 0 0)

/-- Summing a 1 × 1 block along its second axis and viewing the result as a 1 × 1 block again changes nothing. -/
theorem unit_sum (w : FVec Ideal S1x1 .f32) (h1 : S1x1.Reduces [1] S1) (hc : S1.ShapeCasts S1x1) (j : S1x1.Idx) :
    shapeCast S1x1 (multiReduction .add [1] S1 w 0x00000000#32 h1 (.inl rfl) rfl) hc j = w j := by
  unfold shapeCast
  refine (Ideal.multiReduction_add_single w _ h1 _ _ _).trans ?_
  exact (Fin.sum_univ_one _).trans (congrArg w (Subsingleton.elim _ _))

/-- The reset value is 0. -/
theorem pay1_apply (j : S1x1.Idx) : k0_pay1 (F := Ideal) j = 0 := by
  show Ideal.ofBits .f32 0x00000000#32 = 0
  exact Ideal.ofBits_zero_f32

attribute [local irreducible] Cert.MaskCount.count

/-- The accumulation adds the slice's ratio to the block. -/
theorem pay2_apply (x0 x1 : Vec Ideal S1x1x1024x1024 .f32) (a : Vec Ideal S1x1 .f32) (j : S1x1.Idx) :
    k0_pay2 (F := Ideal) x0 x1 a j = a j + ratio (isOne x0) (isOne x1) (0 : Fin 1) (0 : Fin 1) := by
  obtain rfl : j = ix2 0 0 := Subsingleton.elim _ _
  unfold k0_pay2 ratio
  rw [addf_apply, shapeCast_self]
  refine congrArg (a (ix2 0 0) + ·) ((unit_sum _ _ _ _).trans ?_)
  rw [divf_apply, addf_apply]
  refine congrArg₂ Ideal.div ?_ (congrArg (· + FloatOps.ofBits (F := Ideal) .f32 0x33D6BF95#32) ?_)
  · exact plane_count (andi (cmpf (F := Ideal) .oeq x0 _) (cmpf (F := Ideal) .oeq x1 _)) natLt_1_32 _ _
  · exact plane_count (ori (cmpf (F := Ideal) .oeq x0 _) (cmpf (F := Ideal) .oeq x1 _)) natLt_1_32 _ _

/-- The last point scales the block by the constant 3.125. -/
theorem pay3_apply (a : Vec Ideal S1x1 .f32) (j : S1x1.Idx) :
    k0_pay3 (F := Ideal) a j = a j * Ideal.ofBits .f32 0x40480000#32 := by
  unfold k0_pay3
  rw [mulf_apply, shapeCast_self]
  rfl

end Cert.KernelIdeal.Payload

end
-- ==== Proof.KernelResult.lean ====
/-
  What the kernel leaves in its result, point by point, and at the end.

  The output block is 1 × 1 and stays resident over the 32 grid points. Each case of the body leaves in it one pure
  function of the point's two input blocks and of what the point before left: the first point the ratio of slice 0 added
  to the reset value 0; a middle point the previous contents plus its slice's ratio; the last point that sum times 3.125.
  By induction on the point the block after point `n` is the `n + 1`-fold accumulation `acc`, and the block written back
  after point 31 is `result`. It is written back once, covers the whole 1 × 1 array, and the host's reshape to a scalar
  reads it. A point's input blocks are the slices of the two arguments at its index, so at the ideal instance the
  accumulation is the running sum of the slices' ratios and the returned scalar is `loss` of the arguments.
-/
import proofs.«114221_j56547539419669_1_alg».proof.Proof.Gen.KernelIdeal.Frame
import proofs.«114221_j56547539419669_1_alg».proof.Proof.KernelPayload
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A middle point leaves the accumulation step over what the block held. -/
theorem step_B (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (hc0 : ¬cond0_0 i) (hc1 : ¬cond0_1 i) (x0 x1 : Vec F S1x1x1024x1024 .f32) (xo : Vec F S1x1 .f32) :
    out0_B_2 c i a1 h1 a2 h2 a3 h3 hc0 hc1 x0 x1 xo = k0_pay2 x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero hz2]
  simp only [View.readAt_eq_ld, h1.read_unread, h2.read_unread, h3.read_unread,
    View.ld_unit_zero (S := S1x1x1024x1024) hz4, View.ld_unit_zero (S := S1x1) hz2]

/-- The first point resets the block and leaves the accumulation step over the reset value. -/
theorem step_A (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (hc0 : cond0_0 i) (hc1 : ¬cond0_1 i) (x0 x1 : Vec F S1x1x1024x1024 .f32) :
    out0_A_2 c i a1 h1 a2 h2 a3 h3 hc0 hc1 x0 x1 = k0_pay2 x0 x1 k0_pay1 := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S1x1x1024x1024) hz4, View.ld_unit_zero (S := S1x1) hz2]

/-- The last point accumulates and then scales what it has just stored. -/
theorem step_C (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (hc0 : ¬cond0_0 i) (hc1 : cond0_1 i) (x0 x1 : Vec F S1x1x1024x1024 .f32) (xo : Vec F S1x1 .f32) :
    out0_C_2 c i a1 h1 a2 h2 a3 h3 hc0 hc1 x0 x1 xo = k0_pay3 (k0_pay2 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S1x1x1024x1024) hz4, View.ld_unit_zero (S := S1x1) hz2]

variable (m : (ℓ : Loc nD τ sig) → Buf (Elt F) ℓ) (ρ : Dev nD → PrngReg)

/-- The two input blocks at a point and the two argument arrays, at their literal shapes. -/
abbrev blk0 (c : Dev nD) (t : Fin cfg0.N) : Vec F S1x1x1024x1024 .f32 := iblk m c 0 t
abbrev blk1 (c : Dev nD) (t : Fin cfg0.N) : Vec F S1x1x1024x1024 .f32 := iblk m c 1 t
abbrev arr0 (c : Dev nD) : Vec F S32x1x1024x1024 .f32 := V m c main_arg0
abbrev arr1 (c : Dev nD) : Vec F S32x1x1024x1024 .f32 := V m c main_arg1

/-- The unscaled running accumulation after point `n`. -/
def acc (c : Dev nD) : (n : ℕ) → n < cfg0.N → Vec F S1x1 .f32
  | 0, h => k0_pay2 (blk0 m c ⟨0, h⟩) (blk1 m c ⟨0, h⟩) k0_pay1
  | n + 1, h => k0_pay2 (blk0 m c ⟨n + 1, h⟩) (blk1 m c ⟨n + 1, h⟩) (acc c n (Nat.lt_of_succ_lt h))

/-- Before the last point the block holds the running accumulation: by induction on the point. -/
theorem outsAt_eq (c : Dev nD) : ∀ (n : ℕ) (h : n < cfg0.N), n < 31 → outsAt0 m c n h = acc m c n h
  | 0, h, _ => (outsAt0_A m c ⟨0, h⟩ rfl (by dsimp only; omega)).trans (step_A ..)
  | n + 1, h, h31 => by
    have hB0 : ¬(⟨n + 1, h⟩ : Fin cfg0.N).val % 32 = 0 := by dsimp only; omega
    have hB1 : ¬(⟨n + 1, h⟩ : Fin cfg0.N).val % 32 = 31 := by dsimp only; omega
    rw [outsAt0_B m c ⟨n + 1, h⟩ hB0 hB1, step_B]
    show k0_pay2 _ _ (outsAt0 m c n _) = k0_pay2 _ _ (acc m c n _)
    rw [outsAt_eq c n _ (by omega)]

/-- The last grid point, the only one after which the block is written back. -/
abbrev tLast : Fin cfg0.N := ⟨31, by rw [show cfg0.N = 32 from N_0]; decide⟩

/-- What the last point leaves: the accumulation over all 32 slices, scaled. -/
def result (c : Dev nD) : Vec F S1x1 .f32 := k0_pay3 (acc m c 31 (tLast).isLt)

/-- After the last point the block holds `result`. -/
theorem outsAt_last (c : Dev nD) : outsAt0 m c 31 (tLast).isLt = result m c := by
  have hC0 : ¬(tLast : Fin cfg0.N).val % 32 = 0 := by decide
  have hC1 : (tLast : Fin cfg0.N).val % 32 = 31 := by decide
  rw [show outsAt0 m c 31 (tLast).isLt = outsAt0 m c (tLast).val (tLast).isLt from rfl, outsAt0_C m c tLast hC0 hC1, step_C]
  show k0_pay3 (k0_pay2 _ _ (outsAt0 m c 30 _)) = k0_pay3 (k0_pay2 _ _ (acc m c 30 _))
  rw [outsAt_eq m c 30 _ (by decide)]

/-- The one write-back writes `result`: the block at index (0, 0) of a 1 × 1 array is the array. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_last]
  have hz' : (fun a => win0_2.index tLast a * main_v0.ty.shape.size a) = fun _ => 0 := funext fun a => by fin_cases a <;> decide +kernel
  exact (Memref.read_access_unit_zero (Elt F) main_v0 hz' (fun a => by rw [congrFun hz' a]; simp) (result m c)).symm

/-- So the 1 × 1 result array ends holding `result` (the last point's block covers it). -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host's reshape to a scalar reads that array. -/
theorem tail_eq (c : Dev nD) :
    Pipeline.afterTail₀ cfgs (dats m) 0 (V0 m) [hostOps1] c main_v1 = shapeCast S_ (result m c) shapeCasts_S1x1_S_ := by
  unfold Pipeline.afterTail₀
  show StableHlo.after hostOps1 _ (Proc.devRef .tc main_v1) = _
  after_results
  have hw := (Pipeline.withArrays_arr spec0 launch0.win.arr_inj c (V0 m c) (fun w => (dats m 0 c).arrAt w (cfgs 0).N) 2).trans (final_o m c)
  funext i
  exact congrArg (fun v => shapeCast S_ v shapeCasts_S1x1_S_ i) hw

/-! ## The blocks are slices of the arrays -/

theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- The slice a grid point works on, as an index of the leading axis. -/
abbrev sliceOf (t : Fin cfg0.N) : Fin 32 := ⟨t.val, lt_of_lt_of_eq t.isLt N_0⟩

/-- Point `t`'s block of the first argument is slice `t` of it. -/
theorem blk0_apply (c : Dev nD) (t : Fin cfg0.N) (p q : Fin 1024) :
    blk0 m c t (ix4 0 0 p q) = arr0 m c (ix4 (sliceOf t) 0 p q) := by
  obtain ⟨h0, h1, h2, h3⟩ := idx0 t
  show iblk m c 0 t (ix4 0 0 p q) = V m c main_arg0 (ix4 (sliceOf t) 0 p q)
  unfold iblk
  rw [View.read_apply]
  show V m c main_arg0 _ = V m c main_arg0 _
  congr 1
  funext a
  apply Fin.ext
  match a with
  | ⟨0, _⟩ => show win0_0.index t 0 * 1 + 1 * 0 = t.val; omega
  | ⟨1, _⟩ => show win0_0.index t 1 * 1 + 1 * 0 = 0; omega
  | ⟨2, _⟩ => show win0_0.index t 2 * 1024 + 1 * p.val = p.val; omega
  | ⟨3, _⟩ => show win0_0.index t 3 * 1024 + 1 * q.val = q.val; omega

/-- Point `t`'s block of the second argument is slice `t` of it. -/
theorem blk1_apply (c : Dev nD) (t : Fin cfg0.N) (p q : Fin 1024) :
    blk1 m c t (ix4 0 0 p q) = arr1 m c (ix4 (sliceOf t) 0 p q) := by
  obtain ⟨h0, h1, h2, h3⟩ := idx1 t
  show iblk m c 1 t (ix4 0 0 p q) = V m c main_arg1 (ix4 (sliceOf t) 0 p q)
  unfold iblk
  rw [View.read_apply]
  show V m c main_arg1 _ = V m c main_arg1 _
  congr 1
  funext a
  apply Fin.ext
  match a with
  | ⟨0, _⟩ => show win0_1.index t 0 * 1 + 1 * 0 = t.val; omega
  | ⟨1, _⟩ => show win0_1.index t 1 * 1 + 1 * 0 = 0; omega
  | ⟨2, _⟩ => show win0_1.index t 2 * 1024 + 1 * p.val = p.val; omega
  | ⟨3, _⟩ => show win0_1.index t 3 * 1024 + 1 * q.val = q.val; omega

/-! ## The run, read -/

/-- Every weakly fair execution terminates with the scalar result at the reshaped `result` and the arguments unchanged. -/
theorem run_result : θ_run defs (onTc (τ := τ) (main (F := F))) ⟨m, fun _ => 0, ρ⟩ fun r => ∀ c : Dev nD,
      r.2.mem ((c.tc : Thread nD τ).loc main_v1) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

/-! ## At the ideal instance the result is `loss` of the two arguments -/

namespace Cert.KernelIdeal.Result

open Cert.KernelIdeal Cert.KernelIdeal.Gen Idealize.ShloMosaic.ValueIdx Cert.MaskCount Cert.Jaccard Cert.KernelIdeal.Payload

attribute [local irreducible] Cert.MaskCount.count

variable (m : (ℓ : Loc nD τ sig) → Buf (Elt Ideal) ℓ) (ρ : Dev nD → PrngReg)

/-- The ratio of a point's two blocks is the ratio of its slice of the two arrays. -/
theorem blk_ratio (c : Dev nD) (t : Fin cfg0.N) :
    ratio (isOne (blk0 m c t)) (isOne (blk1 m c t)) (0 : Fin 1) (0 : Fin 1)
      = ratio (isOne (arr0 m c)) (isOne (arr1 m c)) (sliceOf t) (0 : Fin 1) :=
  ratio_congr _ _ _ _ _ _ _ _
    (fun p q => congrArg (fun v => FloatOps.cmpf (F := Ideal) .oeq v (FloatOps.ofBits (F := Ideal) .f32 0x3F800000#32)) (blk0_apply m c t p q))
    (fun p q => congrArg (fun v => FloatOps.cmpf (F := Ideal) .oeq v (FloatOps.ofBits (F := Ideal) .f32 0x3F800000#32)) (blk1_apply m c t p q))

/-- After point `n` the block holds the sum of the ratios of slices `0 … n`. -/
theorem acc_apply (c : Dev nD) : ∀ (n : ℕ) (h : n < cfg0.N),
    acc m c n h (ix2 0 0) = upTo (fun k => ratio (isOne (arr0 m c)) (isOne (arr1 m c)) k (0 : Fin 1)) n
  | 0, h => by
    rw [show acc m c 0 h = k0_pay2 (blk0 m c ⟨0, h⟩) (blk1 m c ⟨0, h⟩) (k0_pay1 (F := Ideal)) from rfl, pay2_apply, pay1_apply, zero_add,
      blk_ratio, upTo_zero]
    rfl
  | n + 1, h => by
    have h32 : n + 1 < 32 := lt_of_lt_of_eq h N_0
    rw [show acc m c (n + 1) h = k0_pay2 (blk0 m c ⟨n + 1, h⟩) (blk1 m c ⟨n + 1, h⟩) (acc m c n (Nat.lt_of_succ_lt h)) from rfl,
      pay2_apply, acc_apply c n, blk_ratio, upTo_succ _ n h32]

/-- The scaled block after the last point is `loss`. -/
theorem result_apply (c : Dev nD) (j : S1x1.Idx) : result m c j = loss (arr0 m c) (arr1 m c) := by
  obtain rfl : j = ix2 0 0 := Subsingleton.elim _ _
  unfold result loss
  rw [pay3_apply, acc_apply, upTo_last]

/-- The scalar the program returns. -/
theorem value_eq (c : Dev nD) : shapeCast S_ (result m c) shapeCasts_S1x1_S_
    = fun _ => loss (m ((c.tc : Thread nD τ).loc main_arg0)) (m ((c.tc : Thread nD τ).loc main_arg1)) := by
  funext i
  unfold shapeCast
  exact result_apply m c _

/-- At the ideal instance: every weakly fair execution terminates with the result at `loss` of the arguments, the
    arguments unchanged. -/
theorem run : θ_run defs (onTc (τ := τ) (main (F := Ideal))) ⟨m, fun _ => 0, ρ⟩ fun r => ∀ c : Dev nD,
      r.2.mem ((c.tc : Thread nD τ).loc main_v1)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_eq m c), (h c).2⟩) (run_result m ρ)

end Cert.KernelIdeal.Result

end
-- ==== Proof.RefValue.lean ====
/-
  The reference's result, read at the ideal instance, is `loss` of its two arguments.

  The reference forms the same two masks, widens them, adds the 32-bit words of each 1024 × 1024 plane and converts
  each total to a float: the bit counts again, the planes being far below 2³¹ positions. Then the 32 quotients
  `∩ / (∪ + ε)` are summed from 0, divided by 32 and multiplied by 100.
-/
import proofs.«114221_j56547539419669_1_alg».proof.Proof.Gen.ReferenceIdeal.Read
import proofs.«114221_j56547539419669_1_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read
open Cert.MaskCount Cert.Jaccard

attribute [local irreducible] Cert.MaskCount.count

variable (X Y : (⟨S32x1x1024x1024, .f32⟩ : BufTy).Contents (Elt Ideal))

/-- The two compared masks are "the element is 1.0". -/
theorem mask0_apply (i : S32x1x1024x1024.Idx) : val_main_v1 (F := Ideal) X i = isOne X i := by
  rw [val_main_v1_apply, val_main_v0_apply, val_main_cst_apply]; rfl
theorem mask1_apply (i : S32x1x1024x1024.Idx) : val_main_v3 (F := Ideal) Y i = isOne Y i := by
  rw [val_main_v3_apply, val_main_v2_apply, val_main_cst_0_apply]; rfl

/-- The converted word sum of the conjunction over slice `k`'s plane is its bit count. -/
theorem inter_apply (k : Fin 32) :
    val_main_v7 (F := Ideal) X Y (ix2 k 0) = ((count (fun i => IntOp.andi (isOne X i) (isOne Y i)) k (0 : Fin 1) : ℝ) : EReal) := by
  rw [val_main_v7_apply]
  unfold val_main_v6 val_main_v5 val_main_c
  refine (coe_toInt_reduce_eq_count (by norm_num) (val_main_v4 (F := Ideal) X Y) natLt_1_32
    reducesTo_S32x1x1024x1024_S32x1_d2_3 h_S_ (ix2 k 0)).trans ?_
  exact congrArg (fun n : ℕ => ((n : ℝ) : EReal))
    (count_congr _ _ _ _ _ _ (fun p q => by rw [val_main_v4_apply, mask0_apply, mask1_apply]))

/-- The converted word sum of the disjunction over slice `k`'s plane is its bit count. -/
theorem union_apply (k : Fin 32) :
    val_main_v11 (F := Ideal) X Y (ix2 k 0) = ((count (fun i => IntOp.ori (isOne X i) (isOne Y i)) k (0 : Fin 1) : ℝ) : EReal) := by
  rw [val_main_v11_apply]
  unfold val_main_v10 val_main_v9 val_main_c_1
  refine (coe_toInt_reduce_eq_count (by norm_num) (val_main_v8 (F := Ideal) X Y) natLt_1_32
    reducesTo_S32x1x1024x1024_S32x1_d2_3 h_S_ (ix2 k 0)).trans ?_
  exact congrArg (fun n : ℕ => ((n : ℝ) : EReal))
    (count_congr _ _ _ _ _ _ (fun p q => by rw [val_main_v8_apply, mask0_apply, mask1_apply]))

/-- Slice `k`'s quotient is `ratio`. -/
theorem quotient_apply (k : Fin 32) : val_main_v14 (F := Ideal) X Y (ix2 k 0) = ratio (isOne X) (isOne Y) k (0 : Fin 1) := by
  rw [val_main_v14_apply, val_main_v13_apply, val_main_v12_apply, val_main_cst_2_apply, inter_apply, union_apply]
  rfl

/-- The reference's result is `loss`. -/
theorem result_apply (i : S_.Idx) : val_main_v17 (F := Ideal) X Y i = loss X Y := by
  have hs : ∑ j : S32x1.Idx, val_main_v14 (F := Ideal) X Y j = ∑ k : Fin 32, ratio (isOne X) (isOne Y) k (0 : Fin 1) := by
    rw [sum_idx2]
    refine Finset.sum_congr rfl fun k _ => ?_
    rw [Fin.sum_univ_one]
    exact quotient_apply X Y k
  rw [val_main_v17_apply, val_main_v16_apply, val_main_v15_apply, val_main_cst_3_apply, val_main_cst_4_apply,
    val_main_cst_5_apply, hs]
  show Ideal.div (Ideal.ofBits .f32 0x00000000#32 + _) (Ideal.ofBits .f32 0x42000000#32) * Ideal.ofBits .f32 0x42C80000#32 = _
  rw [Ideal.ofBits_zero_f32, zero_add]
  exact scale_law _

end Cert.ReferenceIdeal.RefValue

end
-- ==== Proof.lean ====
/-
  The proof of `Cert.Claim`: a per-slice intersection-over-union of two 0/1 masks, averaged and scaled.

  Both programs take two arrays of extents [32, 1, 1024, 1024] and return one number. For each of the 32 slices they form
  the masks "the element equals 1.0" of both arrays, count the positions where both hold and the positions where either
  holds, and divide the first count by the second plus ε; the result is 100 times the mean of the 32 quotients.

  The kernel walks the slices one grid point at a time and keeps a running sum in a 1 × 1 output block: the first point
  resets it to 0, every point adds its slice's quotient (its counts are float sums of the converted mask bits, along the
  columns and then along the rows), and the last point multiplies the sum by 3.125 = 100 / 32. The reference counts with
  32-bit integer sums, converts the totals, sums the 32 quotients, divides by 32 and multiplies by 100.

  Over the extended reals the two agree exactly. A float sum of converted bits and a converted integer sum of the same
  bits are both the number of set bits (a plane has 2²⁰ positions, so the integer sum cannot wrap); the quotient is the
  same function of the same two counts and the same ε word; addition is associative, so the running sum is the sum;
  and dividing by 32 then multiplying by 100 is multiplying by 25/8 at every extended real. No finiteness of the inputs
  is used: the comparisons with 1.0 are total, and everything after them is arithmetic on natural numbers.

  The kernel's frame is the generated one at both instances; the reference's frame is its generated run with the result
  dropped; the idealization rewrote nothing, so `preserves` is `True`.
-/
import proofs.«114221_j56547539419669_1_alg».proof.Defs
import proofs.«114221_j56547539419669_1_alg».proof.Proof.Gen.Kernel
import proofs.«114221_j56547539419669_1_alg».proof.Proof.Gen.Kernel.Skeleton
import proofs.«114221_j56547539419669_1_alg».proof.Proof.Gen.Kernel.Launch
import proofs.«114221_j56547539419669_1_alg».proof.Proof.Gen.Kernel.Points
import proofs.«114221_j56547539419669_1_alg».proof.Proof.Gen.Kernel.Frame
import proofs.«114221_j56547539419669_1_alg».proof.Proof.Gen.KernelIdeal
import proofs.«114221_j56547539419669_1_alg».proof.Proof.Gen.KernelIdeal.Skeleton
import proofs.«114221_j56547539419669_1_alg».proof.Proof.Gen.KernelIdeal.Launch
import proofs.«114221_j56547539419669_1_alg».proof.Proof.Gen.KernelIdeal.Points
import proofs.«114221_j56547539419669_1_alg».proof.Proof.Gen.KernelIdeal.Frame
import proofs.«114221_j56547539419669_1_alg».proof.Proof.Gen.ReferenceIdeal
import proofs.«114221_j56547539419669_1_alg».proof.Proof.Gen.ReferenceIdeal.Run
import proofs.«114221_j56547539419669_1_alg».proof.Proof.Gen.ReferenceIdeal.Read
import proofs.«114221_j56547539419669_1_alg».proof.Proof.Gen.Pre_finite_inputs
import proofs.«114221_j56547539419669_1_alg».proof.Proof.KernelResult
import proofs.«114221_j56547539419669_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's scalar ends at `loss` of its arguments and the reference's at `loss` of its own,
    which agree with the kernel's. -/
theorem algebraic : Cert.algebraic_KernelIdeal_ReferenceIdeal := by
  intro m ρ m' ρ' _ hagree
  refine ⟨fun c => fun _ => Cert.Jaccard.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext i
  exact Cert.ReferenceIdeal.RefValue.result_apply _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
